-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x3x224x224 : Shape := ⟨4, ![256, 3, 224, 224]⟩
abbrev S_ : Shape := ⟨0, ![]⟩

class Facts : Prop where
  bcast_S_S256x3x224x224 : S_.BroadcastsInDim S256x3x224x224 (![] : Fin 0 → Fin S256x3x224x224.rank)
  reducesTo_S256x3x224x224_S_d0_1_2_3 : S256x3x224x224.ReducesTo [0, 1, 2, 3] S_
  h_S_ : 0 < S_.numel

variable [Facts]

def fn {F : FTy → Type} [FloatOps F] (main_arg0 : FVec F S256x3x224x224 .f32) : IVec S_ 1 :=
  let main_v0 : FVec F S256x3x224x224 .f32 := Host.absf main_arg0
  let main_cst : FVec F S_ .f32 := constant S_ .f32 0x7F800000#32
  let main_v1 : FVec F S256x3x224x224 .f32 := broadcastInDim S256x3x224x224 ![] bcast_S_S256x3x224x224 main_cst
  let main_v2 : IVec S256x3x224x224 1 := cmpf .olt main_v0 main_v1
  let main_c : IVec S_ 1 := constantI S_ 1 1#1
  let main_v3 : IVec S_ 1 := (fun x v => Host.reduce IntOp.andi x v reducesTo_S256x3x224x224_S_d0_1_2_3 h_S_) main_v2 main_c
  main_v3
-- ==== Kernel.lean ====
abbrev S256x3x224x224 : Shape := ⟨4, ![256, 3, 224, 224]⟩
abbrev S3x224x224x256 : Shape := ⟨4, ![3, 224, 224, 256]⟩
abbrev S150528x256 : Shape := ⟨2, ![150528, 256]⟩
abbrev S150528x128 : Shape := ⟨2, ![150528, 128]⟩
abbrev S1536x256 : Shape := ⟨2, ![1536, 256]⟩
abbrev S1536x128 : Shape := ⟨2, ![1536, 128]⟩
abbrev S256x128 : Shape := ⟨2, ![256, 128]⟩
abbrev S3x224x224x128 : Shape := ⟨4, ![3, 224, 224, 128]⟩
abbrev S128x3x224x224 : Shape := ⟨4, ![128, 3, 224, 224]⟩

abbrev nBuf : Space → Nat
  | .hbm => 6
  | .vmem => 4
  | .smem => 0
  | _ => 0

abbrev bufTy : (tb : Table) → Fin (tcTables nBuf tb) → BufTy
  | .hbm, ⟨0, _⟩ => ⟨S256x3x224x224, .f32⟩
  | .hbm, ⟨1, _⟩ => ⟨S3x224x224x256, .f32⟩
  | .hbm, ⟨2, _⟩ => ⟨S150528x256, .f32⟩
  | .hbm, ⟨3, _⟩ => ⟨S150528x128, .f32⟩
  | .hbm, ⟨4, _⟩ => ⟨S3x224x224x128, .f32⟩
  | .hbm, ⟨5, _⟩ => ⟨S128x3x224x224, .f32⟩
  | .local _ .vmem, ⟨0, _⟩ => ⟨S1536x256, .f32⟩
  | .local _ .vmem, ⟨1, _⟩ => ⟨S1536x256, .f32⟩
  | .local _ .vmem, ⟨2, _⟩ => ⟨S1536x128, .f32⟩
  | .local _ .vmem, ⟨3, _⟩ => ⟨S1536x128, .f32⟩
  | _, _ => ⟨S256x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1536x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1536x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  transposes_S256x3x224x224_S3x224x224x256_1_2_3_0 : S256x3x224x224.Transposes [1, 2, 3, 0] S3x224x224x256
  shapeCasts_S3x224x224x256_S150528x256 : S3x224x224x256.ShapeCasts S150528x256
  iota_S256x128_d0_w32 : S256x128.Iotas .tc 32 [0]
  iota_S256x128_d1_w32 : S256x128.Iotas .tc 32 [1]
  natLt_1_32 : 1 < 32
  inb_S1536x256_S1536x256_0_0 : ∀ a, (![0, 0] : Fin 2 → Nat) a + S1536x256.size a ≤ S1536x256.size a
  h_S1536x256 : 0 < S1536x256.numel
  shapeCasts_S1536x256_S1536x256 : S1536x256.ShapeCasts S1536x256
  inb_S1536x128_S1536x128_0_0 : ∀ a, (![0, 0] : Fin 2 → Nat) a + S1536x128.size a ≤ S1536x128.size a
  h_S1536x128 : 0 < S1536x128.numel
  shapeCasts_S150528x128_S3x224x224x128 : S150528x128.ShapeCasts S3x224x224x128
  transposes_S3x224x224x128_S128x3x224x224_3_0_1_2 : S3x224x224x128.Transposes [3, 0, 1, 2] S128x3x224x224
  dot_S1536x256_S256x128_S1536x128_1_0_0_1_n_n_wf : DotDims.WF S1536x256 S256x128 S1536x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1536x256.size a ≤ S150528x256.size a
  hwx0_0 : ∀ i : grid0.Coords, EltTy.bits .f32 = 32 ∨ (Rect.block (s := S150528x256) S1536x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1536x128.size a ≤ S150528x128.size a
  hwx0_1 : ∀ i : grid0.Coords, EltTy.bits .f32 = 32 ∨ (Rect.block (s := S150528x128) S1536x128.size (cc0_transform_1 i) (hinb0_1 i)).WholeWords (EltTy.packing .f32)

variable [Facts₀]

def dot_S1536x256_S256x128_S1536x128_1_0_0_1_n_n : DotDims S1536x256 S256x128 S1536x128 where
  lhsContracting := [1]
  rhsContracting := [0]
  lhsNonContracting := [0]
  rhsNonContracting := [1]
  lhsBatch := []
  rhsBatch := []
  wf := dot_S1536x256_S256x128_S1536x128_1_0_0_1_n_n_wf

abbrev win0_0 : Pipeline.Window sig grid0 :=
  Pipeline.Window.ofSpec (Memref.whole main_v1) S1536x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1536x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S256x3x224x224 : Shape := ⟨4, ![256, 3, 224, 224]⟩
abbrev S128 : Shape := ⟨1, ![128]⟩
abbrev S_ : Shape := ⟨0, ![]⟩
abbrev S128x1 : Shape := ⟨2, ![128, 1]⟩
abbrev S1 : Shape := ⟨1, ![1]⟩
abbrev S1x1 : Shape := ⟨2, ![1, 1]⟩
abbrev S128x3x224x224 : Shape := ⟨4, ![128, 3, 224, 224]⟩

abbrev nBuf : Space → Nat
  | .hbm => 46
  | .vmem => 0
  | .smem => 0
  | _ => 0

abbrev bufTy : (tb : Table) → Fin (tcTables nBuf tb) → BufTy
  | .hbm, ⟨0, _⟩ => ⟨S256x3x224x224, .f32⟩
  | .hbm, ⟨1, _⟩ => ⟨S128, .i32⟩
  | .hbm, ⟨2, _⟩ => ⟨S_, .i32⟩
  | .hbm, ⟨3, _⟩ => ⟨S128, .i32⟩
  | .hbm, ⟨4, _⟩ => ⟨S128, .i32⟩
  | .hbm, ⟨5, _⟩ => ⟨S_, .i32⟩
  | .hbm, ⟨6, _⟩ => ⟨S_, .i32⟩
  | .hbm, ⟨7, _⟩ => ⟨S128, .i32⟩
  | .hbm, ⟨8, _⟩ => ⟨S128, .i32⟩
  | .hbm, ⟨9, _⟩ => ⟨S128, .i32⟩
  | .hbm, ⟨10, _⟩ => ⟨S_, .i32⟩
  | .hbm, ⟨11, _⟩ => ⟨S128, .i32⟩
  | .hbm, ⟨12, _⟩ => ⟨S128, .i1⟩
  | .hbm, ⟨13, _⟩ => ⟨S128, .i32⟩
  | .hbm, ⟨14, _⟩ => ⟨S128, .i32⟩
  | .hbm, ⟨15, _⟩ => ⟨S_, .i32⟩
  | .hbm, ⟨16, _⟩ => ⟨S128, .i32⟩
  | .hbm, ⟨17, _⟩ => ⟨S128, .i1⟩
  | .hbm, ⟨18, _⟩ => ⟨S128, .i1⟩
  | .hbm, ⟨19, _⟩ => ⟨S_, .i32⟩
  | .hbm, ⟨20, _⟩ => ⟨S128, .i32⟩
  | .hbm, ⟨21, _⟩ => ⟨S128, .i32⟩
  | .hbm, ⟨22, _⟩ => ⟨S128, .i32⟩
  | .hbm, ⟨23, _⟩ => ⟨S_, .i32⟩
  | .hbm, ⟨24, _⟩ => ⟨S128, .i32⟩
  | .hbm, ⟨25, _⟩ => ⟨S128, .i1⟩
  | .hbm, ⟨26, _⟩ => ⟨S_, .i32⟩
  | .hbm, ⟨27, _⟩ => ⟨S128, .i32⟩
  | .hbm, ⟨28, _⟩ => ⟨S128, .i32⟩
  | .hbm, ⟨29, _⟩ => ⟨S128, .i32⟩
  | .hbm, ⟨30, _⟩ => ⟨S128x1, .i32⟩
  | .hbm, ⟨31, _⟩ => ⟨S1, .i32⟩
  | .hbm, ⟨32, _⟩ => ⟨S_, .i32⟩
  | .hbm, ⟨33, _⟩ => ⟨S128x1, .i32⟩
  | .hbm, ⟨34, _⟩ => ⟨S128x1, .i1⟩
  | .hbm, ⟨35, _⟩ => ⟨S1x1, .i32⟩
  | .hbm, ⟨36, _⟩ => ⟨S128x1, .i32⟩
  | .hbm, ⟨37, _⟩ => ⟨S128x1, .i1⟩
  | .hbm, ⟨38, _⟩ => ⟨S128x1, .i1⟩
  | .hbm, ⟨39, _⟩ => ⟨S_, .i1⟩
  | .hbm, ⟨40, _⟩ => ⟨S128, .i1⟩
  | .hbm, ⟨41, _⟩ => ⟨S128x3x224x224, .f32⟩
  | .hbm, ⟨42, _⟩ => ⟨S128x3x224x224, .i1⟩
  | .hbm, ⟨43, _⟩ => ⟨S_, .f32⟩
  | .hbm, ⟨44, _⟩ => ⟨S128x3x224x224, .f32⟩
  | .hbm, ⟨45, _⟩ => ⟨S128x3x224x224, .f32⟩
  | _, _ => ⟨S256x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v3 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_c_1 : Ref sig .tc := ⟨.hbm, 31, rfl⟩
abbrev main_call1_c_2 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_3 : Ref sig .tc := ⟨.hbm, 39, rfl⟩
abbrev main_call1_v12 : Ref sig .tc := ⟨.hbm, 40, rfl⟩
abbrev main_call1_v13 : Ref sig .tc := ⟨.hbm, 41, rfl⟩
abbrev main_call1_v14 : Ref sig .tc := ⟨.hbm, 42, rfl⟩
abbrev main_call1_cst : Ref sig .tc := ⟨.hbm, 43, rfl⟩
abbrev main_call1_v15 : Ref sig .tc := ⟨.hbm, 44, rfl⟩
abbrev main_v4 : Ref sig .tc := ⟨.hbm, 45, rfl⟩

abbrev nD : Nat := 1
abbrev τ : Topo := Topo.v7x

variable {F : FTy → Type} [FloatOps F]

class Facts₀ : Prop where
  bcast_S_S128 : S_.BroadcastsInDim S128 (![] : Fin 0 → Fin S128.rank)
  bcast_S128_S128x1_0 : S128.BroadcastsInDim S128x1 (![0] : Fin 1 → Fin S128x1.rank)
  bcast_S_S128x1 : S_.BroadcastsInDim S128x1 (![] : Fin 0 → Fin S128x1.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  reducesTo_S128x1_S128_d1 : S128x1.ReducesTo [1] S128
  h_S_ : 0 < S_.numel
  bcast_S128_S128x3x224x224_0 : S128.BroadcastsInDim S128x3x224x224 (![0] : Fin 1 → Fin S128x3x224x224.rank)
  bcast_S_S128x3x224x224 : S_.BroadcastsInDim S128x3x224x224 (![] : Fin 0 → Fin S128x3x224x224.rank)
  gather_S256x3x224x224_S128x1_S128x3x224x224_123_0_n_n_0_1_13224224_wf : GatherDims.WF S256x3x224x224 S128x1 S128x3x224x224 [1, 2, 3] [0] [] [0] [] 1 ![1, 3, 224, 224]

variable [Facts₀]

def gather_S256x3x224x224_S128x1_S128x3x224x224_123_0_n_n_0_1_13224224 : GatherDims S256x3x224x224 S128x1 S128x3x224x224 where
  offsetDims := [1, 2, 3]
  collapsedSliceDims := [0]
  operandBatchingDims := []
  startIndicesBatchingDims := []
  startIndexMap := [0]
  indexVectorDim := 1
  sliceSizes := ![1, 3, 224, 224]
  wf := gather_S256x3x224x224_S128x1_S128x3x224x224_123_0_n_n_0_1_13224224_wf

class Facts : Prop extends Facts₀ where

variable [Facts]
-- ==== Proof.Words.lean ====
/-
  The frame map of the resampling and the integer words both programs compute it with.

  Output frame n (0 ≤ n < 128) is input frame  sel n = ⌊255·n / 127⌋  (0 ≤ sel n ≤ 255). Both programs compute the
  quotient on 32-bit words as a truncating signed division followed by the floor correction "subtract one when the
  signs of dividend and divisor differ and the remainder is not zero". Here the dividend 255·n is never negative and
  the divisor 127 is positive, so the correction never fires and the word is the word of ⌊255·n / 127⌋: checked on
  each of the 128 values (`hostWord_eq`, `kernWord_eq`). The host program then wraps a negative index by adding 256
  and tests the range [0, 255]: the wrap leaves these words alone and the test is the bit 1 (`hostWord_eq`,
  `inRange_eq`), and the clamp into [0, 255] of the signed reading returns sel n (`clamp_eq`).

  The kernel turns the comparison "row k is the selected frame of column q" into the number 1 or 0 (`eqBit_toInt`), and
  a sum of products with such a one-hot column is the one selected term, on the extended reals too, because
  x · 0 = 0 and x · 1 = x for every extended real x (`sum_onehot`).
-/
import Idealize.ShloMosaic.PureOps
import Idealize.ShloMosaic.PureOps.Ideal.Laws
import Idealize.ShloMosaic.Lib.StableHlo.Predicate

open scoped BigOperators

namespace Cert.Resample

open Idealize.ShloMosaic

/-- Output frame `n` reads input frame ⌊255·n / 127⌋. -/
def sel (n : Fin 128) : Fin 256 := ⟨n.val * 255 / 127, by have := n.isLt; omega⟩

/-- The sign of a word as the host's `sign` computes it: 0, -1 or 1. -/
def sgn (s : BitVec 32) : BitVec 32 := if s = 0 then 0 else if s.msb then -1 else 1

/-- The host program's floor quotient of 255·n by 127, on words: truncating division, then one less when the signs
    differ and the remainder is not zero. -/
def hostWord (n : BitVec 32) : BitVec 32 :=
  Scalar.select
    (IntOp.andi (IntOp.cmpi .ne (sgn (IntOp.muli n 255#32)) (sgn 127#32))
      (IntOp.cmpi .ne (IntOp.remsi .host (IntOp.muli n 255#32) 127#32) 0#32))
    (IntOp.subi (IntOp.divsi .host (IntOp.muli n 255#32) 127#32) 1#32)
    (IntOp.divsi .host (IntOp.muli n 255#32) 127#32)

/-- The host program's wrap of a negative index into an axis of 256 entries. -/
def wrap256 (s : BitVec 32) : BitVec 32 := Scalar.select (IntOp.cmpi .slt s 0#32) (IntOp.addi s 256#32) s

/-- The host program's range test 0 ≤ s ≤ 255. -/
def inRange (s : BitVec 32) : BitVec 1 := IntOp.andi (IntOp.cmpi .sge s 0#32) (IntOp.cmpi .sle s 255#32)

/-- The kernel's floor quotient of 255·c by 127, on words: the signs are taken as (a > 0) - (a < 0). -/
def kernWord (c : BitVec 32) : BitVec 32 :=
  Scalar.select
    (IntOp.andi
      (IntOp.cmpi .ne
        (IntOp.subi ((IntOp.cmpi .sgt (IntOp.muli c 255#32) 0#32).setWidth 32) ((IntOp.cmpi .slt (IntOp.muli c 255#32) 0#32).setWidth 32))
        (Scalar.subi (Scalar.extui (Scalar.cmpi .sgt 127#32 0#32)) (Scalar.extui (Scalar.cmpi .slt 127#32 0#32))))
      (IntOp.cmpi .ne (IntOp.remsi .vector (IntOp.muli c 255#32) 127#32) 0#32))
    (IntOp.subi (IntOp.divsi .vector (IntOp.muli c 255#32) 127#32) 1#32)
    (IntOp.divsi .vector (IntOp.muli c 255#32) 127#32)

/-- The host's wrapped index word of output frame `n` is the word of `sel n`. -/
theorem hostWord_eq : ∀ n : Fin 128, wrap256 (hostWord (BitVec.ofNat 32 n.val)) = BitVec.ofNat 32 (sel n).val := by
  decide +kernel

/-- It passes the range test. -/
theorem inRange_eq : ∀ n : Fin 128, inRange (BitVec.ofNat 32 (sel n).val) = 1#1 := by
  decide +kernel

/-- Read signed and clamped into [0, 255] it is `sel n`. -/
theorem clamp_eq : ∀ n : Fin 128, min (BitVec.ofNat 32 (sel n).val).toInt.toNat (256 - 1) = (sel n).val := by
  decide +kernel

/-- The kernel's index word of output column `c` is the word of `sel c`. -/
theorem kernWord_eq : ∀ c : Fin 128, kernWord (BitVec.ofNat 32 c.val) = BitVec.ofNat 32 (sel c).val := by
  decide +kernel

/-- The comparison of two frame numbers, widened to a word and read signed, is 1 when they are equal and 0 otherwise. -/
theorem eqBit_toInt (k s : Fin 256) :
    ((IntOp.cmpi .eq (BitVec.ofNat 32 k.val) (BitVec.ofNat 32 s.val)).setWidth 32).toInt = if k = s then 1 else 0 := by
  by_cases h : k = s
  · subst h
    rw [if_pos rfl, StableHlo.Predicate.cmpi_eq_iff.2 rfl]
    decide
  · rw [if_neg h]
    have hne : IntOp.cmpi .eq (BitVec.ofNat 32 k.val) (BitVec.ofNat 32 s.val) ≠ 1#1 := fun e => h (Fin.ext (by
      have h2 := congrArg BitVec.toNat (StableHlo.Predicate.cmpi_eq_iff.1 e)
      simp only [BitVec.toNat_ofNat] at h2
      have hk := k.isLt; have hs := s.isLt
      omega))
    have h0 : ∀ b : BitVec 1, b ≠ 1#1 → b = 0#1 := by decide
    rw [h0 _ hne]
    decide

/-- A sum of products with a one-hot column is the selected term, on the extended reals. -/
theorem sum_onehot {K : Nat} (f : Fin K → EReal) (s : Fin K) :
    ∑ k : Fin K, f k * (((if k = s then (1 : Int) else 0 : Int) : ℝ) : EReal) = f s := by
  rw [Finset.sum_eq_single s]
  · rw [if_pos rfl]; simp
  · intro k _ hk; rw [if_neg hk]; simp
  · intro h; exact absurd (Finset.mem_univ s) h

end Cert.Resample
-- ==== Proof.LibDense.lean ====
/-
  One dense layer of a multilayer perceptron, read one row at a time over the extended reals.

  A layer maps a row  v  of K numbers to the row  y_c = (Σ_k v_k · W_{k,c}) + b_c  of C numbers (`affine`), optionally
  followed by the rectifier  max(·, 0)  (`relu`). A product of an [R, K] array with a [K, C] array whose dimension
  numbers contract the left operand's axis 1 with the right operand's axis 0 (no batch axes) is, at the entry (r, c),
  the sum over k of  lhs(r, k) · rhs(k, c) : this holds for the matrix unit's product into a zero accumulator and for the
  host's general product alike (`matmul_zero_plain_apply`, `dotGeneral_plain_apply`), because both are the same sum over
  the one-axis contraction index, re-indexed here by its one coordinate (`contr_sum`). So a whole layer as either
  program spells it — the product, the bias row added to every row, the maximum with zero — is `relu (affine W b row)`
  at every entry (`kernel_affine_apply` then `kernel_relu_apply`; `host_affine_apply` then `host_relu_apply`), whatever the number of rows: a layer acts on each row by
  itself.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- The affine map of one row:  y_c = (Σ_k v_k · W_{k,c}) + b_c . -/
def affine {K C : ℕ} (W : FVec Ideal ⟨2, ![K, C]⟩ .f32) (b : FVec Ideal ⟨1, ![C]⟩ .f32) (v : Fin K → EReal) :
    Fin C → EReal :=
  fun c => (∑ k : Fin K, v k * W (ix2 k c)) + b (ix1 c)

/-- The rectifier on a row:  max(y_c, 0) . -/
def relu {C : ℕ} (v : Fin C → EReal) : Fin C → EReal := fun c => max (v c) 0

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

/-- With no batch axes and the left operand's axis 0 its only free axis, the left index's row is the result's row. -/
private theorem lhsIdx_row {R K C : ℕ} (d : DotDims ⟨2, ![R, K]⟩ ⟨2, ![K, C]⟩ ⟨2, ![R, C]⟩)
    (h3 : d.lhsNonContracting = [0]) (h5 : d.lhsBatch = [])
    (j : (⟨2, ![R, C]⟩ : Shape).Idx) (k : d.contr.Idx) : (d.lhsIdx j k 0).val = (j 0).val := by
  have hb : (0 : Fin 2) ∉ d.lhsBatch := by rw [h5]; exact List.not_mem_nil
  have hn : (0 : Fin 2) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- With no batch axes, one free axis on the left and the right operand's axis 1 its only free axis, the right index's
    column is the result's column. -/
private theorem rhsIdx_col {R K C : ℕ} (d : DotDims ⟨2, ![R, K]⟩ ⟨2, ![K, C]⟩ ⟨2, ![R, C]⟩)
    (h3 : d.lhsNonContracting = [0]) (h4 : d.rhsNonContracting = [1]) (h5 : d.lhsBatch = []) (h6 : d.rhsBatch = [])
    (j : (⟨2, ![R, C]⟩ : Shape).Idx) (k : d.contr.Idx) : (d.rhsIdx j k 1).val = (j 1).val := by
  have hb : (1 : Fin 2) ∉ d.rhsBatch := by rw [h6]; exact List.not_mem_nil
  have hn : (1 : Fin 2) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over a one-axis contraction index of a plain [R,K] × [K,C] product, as the sum over k of
    lhs(r, k) · rhs(k, c). -/
theorem contr_sum {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (lhs : (⟨2, ![R, K]⟩ : Shape).Idx → EReal) (rhs : (⟨2, ![K, C]⟩ : Shape).Idx → EReal) (r : Fin R) (c : Fin C) :
    ∑ k : d.contr.Idx, lhs (d.lhsIdx (ix2 r c) k) * rhs (d.rhsIdx (ix2 r c) k)
      = ∑ k : Fin K, lhs (ix2 r k) * rhs (ix2 k c) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, k): its row from the result, its column from the contraction
  have el : d.lhsIdx (ix2 r c) ((contrEquiv1 d K hr hs).symm k) = ix2 r k := by
    funext a
    match a with
    | ⟨0, _⟩ => exact Fin.ext (lhsIdx_row d h3 h5 (ix2 r c) _)
    | ⟨1, _⟩ => exact Fin.ext ((d.lhsIdx_val_of_single h1 (ix2 r c) _).trans hk)
  -- the right operand is read at (k, c): its row from the contraction, its column from the result
  have er : d.rhsIdx (ix2 r c) ((contrEquiv1 d K hr hs).symm k) = ix2 k c := by
    funext a
    match a with
    | ⟨0, _⟩ => exact Fin.ext ((d.rhsIdx_val_of_single h2 (ix2 r c) _).trans hk)
    | ⟨1, _⟩ => exact Fin.ext (rhsIdx_col d h3 h4 h5 h6 (ix2 r c) _)
  rw [el, er]

/-- The matrix unit's product into a zero accumulator, at (r, c). -/
theorem matmul_zero_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    matmul d prec lhs rhs (constant ⟨2, ![R, C]⟩ .f32 0x00000000#32) (ix2 r c)
      = ∑ k : Fin K, lhs (ix2 r k) * rhs (ix2 k c) := by
  -- the product into zeros is the sum over the contraction index, which is the sum over k
  show FloatOps.matmul d prec lhs rhs (constant ⟨2, ![R, C]⟩ .f32 0x00000000#32) (ix2 r c) = _
  rw [Ideal.matmul_constant_zero_apply]
  exact contr_sum d h1 h2 h3 h4 h5 h6 lhs rhs r c

/-- The host's general product, at (r, c). -/
theorem dotGeneral_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    Host.dotGeneral d prec lhs rhs (ix2 r c) = ∑ k : Fin K, lhs (ix2 r k) * rhs (ix2 k c) := by
  -- the general product is the same sum over the contraction index
  simp only [Host.dotGeneral]
  rw [Ideal.dotGeneral_apply]
  exact contr_sum d h1 h2 h3 h4 h5 h6 lhs rhs r c

/-- A [C] row viewed as a [1, C] array and stretched over R rows reads, at (r, c), the row's entry c. -/
private theorem bias_keepdims_apply {R C : ℕ} {α : Type}
    (hsc : (⟨1, ![C]⟩ : Shape).ShapeCasts ⟨2, ![1, C]⟩) (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) := by
  -- the stretch reads the [1, C] array at (0, c); when C = 1 the column c is itself 0
  refine (broadcastTo_apply _ hbc (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the added unit axis reads the row at its trailing coordinate
  · refine (shapeCast_addUnit_apply ![C] b hsc (ix2 (0 : Fin 1) c)).trans ?_
    exact congrArg b (funext fun a => match a with | ⟨0, _⟩ => rfl)

/-- A layer before its rectifier as the kernel spells it — both operands narrowed to bf16 (the identity on the
    extended reals), the product into zeros, the bias as a [1, C] row stretched over the R rows and added — at (r, c). -/
theorem kernel_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![R, C]⟩)
    (X : FVec Ideal ⟨2, ![R, K]⟩ .f32) (W : FVec Ideal ⟨2, ![K, C]⟩ .f32) (b : FVec Ideal ⟨1, ![C]⟩ .f32)
    (r : Fin R) (c : Fin C) :
    addf (matmul d none (truncf .bf16 X hlt) (truncf .bf16 W hlt) (constant ⟨2, ![R, C]⟩ .f32 0x00000000#32))
        (broadcastTo ⟨2, ![R, C]⟩ (shapeCast ⟨2, ![1, C]⟩ b hsc) hbc) (ix2 r c)
      = affine W b (fun k => X (ix2 r k)) c := by
  -- the sum at (r, c) plus the bias entry c; narrowing to bf16 is the identity on the extended reals
  rw [addf_apply, matmul_zero_plain_apply d h1 h2 h3 h4 h5 h6, bias_keepdims_apply hsc hbc b r c]
  rfl

/-- The kernel's rectifier — the maximum with a splat of the zero word — at an index. -/
theorem kernel_relu_apply {s : Shape} (v : FVec Ideal s .f32) (i : s.Idx) :
    maximumf v (broadcast s (Scalar.ofBits (F := Ideal) .f32 0x00000000#32)) i = max (v i) 0 := by
  -- the splat reads the zero word everywhere, and the zero word is the number 0
  rw [maximumf_apply, broadcast_apply]
  show max (v i) (Ideal.ofBits .f32 0x00000000#32) = _
  rw [Ideal.ofBits_zero_f32]

/-- A [C] row laid out as a [1, C] array on its axis 1 and then over R rows on both axes reads, at (r, c), the row's
    entry c. -/
private theorem bias_inDim_apply {R C : ℕ} {α : Type}
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) := by
  -- the outer layout reads the [1, C] array at (0, c); when C = 1 the column c is itself 0
  refine (broadcastInDim_apply ![0, 1] hb2 _ (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the inner layout reads the row at the [1, C] array's coordinate on axis 1
  · refine broadcastInDim_apply ![1] hb1 b (ix2 (0 : Fin 1) c) (ix1 c) fun a => ?_
    match a with
    | ⟨0, _⟩ =>
      show c.val = if C = 1 then 0 else c.val
      split
      · have := c.isLt; omega
      · rfl

/-- A layer before its rectifier as the host spells it — the general product, the bias laid out as a [1, C] row and
    then over the R rows, added — at (r, c). -/
theorem host_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (X : FVec Ideal ⟨2, ![R, K]⟩ .f32) (W : FVec Ideal ⟨2, ![K, C]⟩ .f32) (b : FVec Ideal ⟨1, ![C]⟩ .f32)
    (r : Fin R) (c : Fin C) :
    addf (Host.dotGeneral d none X W)
        (broadcastInDim ⟨2, ![R, C]⟩ ![0, 1] hb2 (broadcastInDim ⟨2, ![1, C]⟩ ![1] hb1 b)) (ix2 r c)
      = affine W b (fun k => X (ix2 r k)) c := by
  -- the sum at (r, c) plus the bias entry c
  rw [addf_apply, dotGeneral_plain_apply d h1 h2 h3 h4 h5 h6, bias_inDim_apply hb1 hb2 b r c]
  rfl

/-- The host's rectifier — the maximum with the zero scalar laid out over the array — at an index. -/
theorem host_relu_apply {s : Shape} (hb0 : (⟨0, ![]⟩ : Shape).BroadcastsInDim s (![] : Fin 0 → Fin s.rank))
    (v : FVec Ideal s .f32) (i : s.Idx) :
    maximumf v (broadcastInDim s ![] hb0 (constant (F := Ideal) ⟨0, ![]⟩ .f32 0x00000000#32)) i = max (v i) 0 := by
  -- the scalar laid out over the array reads its one entry everywhere: the zero word, which is the number 0
  rw [maximumf_apply]
  have e : broadcastInDim s ![] hb0 (constant (F := Ideal) ⟨0, ![]⟩ .f32 0x00000000#32) i
      = constant (F := Ideal) ⟨0, ![]⟩ .f32 0x00000000#32 ix0 :=
    broadcastInDim_apply ![] hb0 _ i ix0 fun a => a.elim0
  rw [e, constant_apply, Ideal.ofBits_zero_f32]

end Cert.Dense

end
-- ==== Proof.Select.lean ====
/-
  The kernel body's value: a block of rows times the selection matrix is the block's selected columns.

  The body builds the 256 × 128 matrix  S  whose entry (k, q) is the number 1 when k is the selected frame of column q,
  that is k = ⌊255·q / 127⌋, and 0 otherwise (`selMat`, `selMat_apply`): the row number k and the column's quotient are
  compared as words, the comparison bit is widened and converted to a number. It then multiplies its 1536 × 256 input
  block by  S  into a zero accumulator. Entry (p, q) of the product is the sum over k of  x(p, k) · S(k, q), and since
  column q of  S  is one-hot at  sel q  the sum is  x(p, sel q)  (`pay_apply`), for every extended real entry.
-/
import proofs.«180383_g5634997093011_cont_9to1c4b_178_15_alg».proof.Proof.Gen.KernelIdeal.Skeleton
import proofs.«180383_g5634997093011_cont_9to1c4b_178_15_alg».proof.Proof.Words
import proofs.«180383_g5634997093011_cont_9to1c4b_178_15_alg».proof.Proof.LibDense

noncomputable section

open scoped BigOperators

namespace Cert.KernelIdeal.Select

open Cert.KernelIdeal Cert.KernelIdeal.Gen Idealize.ShloMosaic Idealize.ShloMosaic.ValueIdx Cert.Resample

variable {F : FTy → Type} [FloatOps F]

/-- 255 times the column number, at every entry. -/
def colTimes : IVec S256x128 32 := muli (iota .tc S256x128 32 [1] iota_S256x128_d1_w32) (broadcast S256x128 255#32)

/-- The floor quotient of 255·(column number) by 127, at every entry, as the body computes it. -/
def colFrame : IVec S256x128 32 :=
  select
    (andi
      (cmpi .ne
        (subi (extui 32 (cmpi .sgt colTimes (broadcast S256x128 0#32)) natLt_1_32) (extui 32 (cmpi .slt colTimes (broadcast S256x128 0#32)) natLt_1_32))
        (broadcast S256x128 (Scalar.subi (Scalar.extui (Scalar.cmpi .sgt 127#32 0#32)) (Scalar.extui (Scalar.cmpi .slt 127#32 0#32)))))
      (cmpi .ne (remsi colTimes (broadcast S256x128 127#32)) (broadcast S256x128 0#32)))
    (subi (divsi colTimes (broadcast S256x128 127#32)) (broadcast S256x128 1#32))
    (divsi colTimes (broadcast S256x128 127#32))

/-- The selection matrix: 1 where the row number is the column's frame, 0 elsewhere. -/
def selMat : FVec F S256x128 .f32 :=
  sitofp .f32 (extui 32 (cmpi .eq (iota .tc S256x128 32 [0] iota_S256x128_d0_w32) colFrame) natLt_1_32)

/-- The body's stored value is the input block times the selection matrix, into zeros. -/
theorem pay_eq (x0 : Vec F S1536x256 .f32) :
    k0_pay1 x0 = matmul dot_S1536x256_S256x128_S1536x128_1_0_0_1_n_n (some .fp32)
      (shapeCast S1536x256 x0 shapeCasts_S1536x256_S1536x256) selMat (constant S1536x128 .f32 0x00000000#32) := rfl

/-- The column's frame word at entry (k, q) is the kernel's quotient word of q. -/
theorem colFrame_apply (k : Fin 256) (q : Fin 128) : colFrame (ix2 k q) = kernWord (BitVec.ofNat 32 q.val) := by
  have hi : iota .tc S256x128 32 [1] iota_S256x128_d1_w32 (ix2 k q) = BitVec.ofNat 32 q.val :=
    iota_single_apply .tc S256x128 32 1 iota_S256x128_d1_w32 (ix2 k q)
  have ht : colTimes (ix2 k q) = IntOp.muli (BitVec.ofNat 32 q.val) 255#32 := by
    show IntOp.muli (iota .tc S256x128 32 [1] iota_S256x128_d1_w32 (ix2 k q)) 255#32 = _
    rw [hi]
  show Scalar.select
      (IntOp.andi
        (IntOp.cmpi .ne
          (IntOp.subi ((IntOp.cmpi .sgt (colTimes (ix2 k q)) 0#32).setWidth 32) ((IntOp.cmpi .slt (colTimes (ix2 k q)) 0#32).setWidth 32))
          (Scalar.subi (Scalar.extui (Scalar.cmpi .sgt 127#32 0#32)) (Scalar.extui (Scalar.cmpi .slt 127#32 0#32))))
        (IntOp.cmpi .ne (IntOp.remsi .vector (colTimes (ix2 k q)) 127#32) 0#32))
      (IntOp.subi (IntOp.divsi .vector (colTimes (ix2 k q)) 127#32) 1#32)
      (IntOp.divsi .vector (colTimes (ix2 k q)) 127#32) = _
  rw [ht]
  rfl

/-- Entry (k, q) of the selection matrix, as a number: 1 when k is the selected frame of q, else 0. -/
theorem selMat_apply (k : Fin 256) (q : Fin 128) :
    selMat (F := Ideal) (ix2 k q) = (((if k = sel q then (1 : Int) else 0 : Int) : ℝ) : EReal) := by
  have hi : iota .tc S256x128 32 [0] iota_S256x128_d0_w32 (ix2 k q) = BitVec.ofNat 32 k.val :=
    iota_single_apply .tc S256x128 32 0 iota_S256x128_d0_w32 (ix2 k q)
  show ((((IntOp.cmpi .eq (iota .tc S256x128 32 [0] iota_S256x128_d0_w32 (ix2 k q)) (colFrame (ix2 k q))).setWidth 32).toInt : ℝ) : EReal) = _
  rw [hi, colFrame_apply, kernWord_eq q, eqBit_toInt k (sel q)]

/-- Entry (p, q) of the body's stored value is the input block's entry (p, sel q). -/
theorem pay_apply (x0 : Vec Ideal S1536x256 .f32) (p : Fin 1536) (q : Fin 128) :
    k0_pay1 x0 (ix2 p q) = x0 (ix2 p (sel q)) := by
  rw [pay_eq]
  refine (Cert.Dense.matmul_zero_plain_apply dot_S1536x256_S256x128_S1536x128_1_0_0_1_n_n rfl rfl rfl rfl rfl rfl
    (some .fp32) (shapeCast S1536x256 x0 shapeCasts_S1536x256_S1536x256) (selMat (F := Ideal)) p q).trans ?_
  rw [shapeCast_self]
  simp only [selMat_apply]
  exact sum_onehot (fun k => x0 (ix2 p k)) (sel q)

end Cert.KernelIdeal.Select

end
-- ==== Proof.KernelArray.lean ====
/-
  The kernel program's result as one function of its argument.

  The program lays the argument x[256, 3, 224, 224] out frame-minor, a[(c·224 + h)·224 + w, t] = x[t, c, h, w] (a
  transpose and a reshape, `staged_apply`), runs the kernel over 98 blocks of 1536 rows, and lays the [150528, 128]
  result back out frame-major (a reshape and a transpose). Each grid point writes back its block of rows times the
  selection matrix, which is the block's columns  sel q  (q = 0 … 127): block t of the whole array `selCols a`
  (`flushed_eq`: the input and output windows step through the rows together, `idx_facts`). The 98 blocks tile the rows
  (row r lies in block r / 1536, `cover`), so the result array ends at `selCols a` (`final`), and after the two layout
  operations the program's result at (n, c, h, w) is x[sel n, c, h, w] (`result_apply`).
-/
import proofs.«180383_g5634997093011_cont_9to1c4b_178_15_alg».proof.Proof.Gen.KernelIdeal.Frame
import proofs.«180383_g5634997093011_cont_9to1c4b_178_15_alg».proof.Proof.Select
import Idealize.ShloMosaic.Lib.Pipeline.Value
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.ShloMosaic.ValueIdx
  Idealize.SL.Sem Cert.Resample
open Idealize.ShloMosaic.Pipeline (Dat)

variable (m : (ℓ : Loc nD τ sig) → Buf (Elt Ideal) ℓ) (ρ : Dev nD → PrngReg)

/-- The selected frame of a column number, on naturals. -/
theorem sel_lt (q : Nat) (hq : q < 128) : q * 255 / 127 < 256 := by omega

/-- The [rows, 256] array with its columns selected: column q of the result is column ⌊255·q / 127⌋ of the array. -/
def selCols {α : Type} (a : S150528x256.Idx → α) : S150528x128.Idx → α :=
  fun i => a (ix2 (⟨(i 0).val, idx2_lt0 i⟩ : Fin 150528) (⟨(i 1).val * 255 / 127, sel_lt _ (idx2_lt1 i)⟩ : Fin 256))

/-- The program's result as a function of its argument: output frame n is input frame sel n. -/
def resample {α : Type} (x : S256x3x224x224.Idx → α) : S128x3x224x224.Idx → α :=
  fun j => x (ix4 (⟨(j 0).val * 255 / 127, sel_lt _ (j 0).isLt⟩ : Fin 256)
    (⟨(j 1).val, (j 1).isLt⟩ : Fin 3) (⟨(j 2).val, (j 2).isLt⟩ : Fin 224) (⟨(j 3).val, (j 3).isLt⟩ : Fin 224))

theorem resample_apply {α : Type} (x : S256x3x224x224.Idx → α) (n : Fin 128) (c : Fin 3) (h w : Fin 224) :
    resample x (ix4 n c h w) = x (ix4 (sel n) c h w) := rfl

/-! ## The staged array -/

/-- The array the kernel reads, as the region finds it. -/
abbrev staged (c : Dev nD) : S150528x256.Idx → EReal := V m c main_v1

/-- The input window's block at a point, at its literal type. -/
abbrev xblk (c : Dev nD) (t : Fin cfg0.N) : Vec Ideal S1536x256 .f32 := iblk m c 0 t

/-- The staged array is the argument transposed frame-minor and flattened. -/
theorem staged_eq (c : Dev nD) :
    staged m c = shapeCast S150528x256
      (transpose S3x224x224x256 [1, 2, 3, 0] (m ((c : Thread nD τ).loc main_arg0)) transposes_S256x3x224x224_S3x224x224x256_1_2_3_0)
      shapeCasts_S3x224x224x256_S150528x256 := by
  show StableHlo.after hostOps0 (fun b => m (c, b)) (Proc.devRef .tc main_v1) = _
  after_results
  rfl

/-- Row (c·224 + h)·224 + w, column t of the staged array is the argument at (t, c, h, w). -/
theorem staged_apply (c : Dev nD) (k : Fin 3) (h w : Fin 224) (t : Fin 256) (r : Fin 150528)
    (hr : r.val = (k.val * 224 + h.val) * 224 + w.val) :
    staged m c (ix2 r t) = m ((c : Thread nD τ).loc main_arg0) (ix4 t k h w) := by
  rw [staged_eq]
  refine (shapeCast_apply _ shapeCasts_S3x224x224x256_S150528x256 (ix2 r t) (ix4 k h w t) ?_).trans ?_
  · rw [Shape.rowMajor_val_four, Shape.rowMajor_val_two]
    show ((k.val * 224 + h.val) * 224 + w.val) * 256 + t.val = r.val * 256 + t.val
    rw [hr]
  · refine transpose_apply [1, 2, 3, 0] _ transposes_S256x3x224x224_S3x224x224x256_1_2_3_0 (ix4 k h w t) (ix4 t k h w) ?_
    intro b
    match b with
    | ⟨0, _⟩ => rfl
    | ⟨1, _⟩ => rfl
    | ⟨2, _⟩ => rfl
    | ⟨3, _⟩ => rfl

/-! ## From blocks to the array -/

theorem hz : (![0, 0] : Fin 2 → Nat) = fun _ => 0 := funext fun a => by fin_cases a <;> rfl

/-- The two windows step through the row blocks together and never move along the columns. -/
theorem idx_facts : ∀ t : Fin cfg0.N, win0_0.index t (0 : Fin 2) = win0_1.index t (0 : Fin 2)
    ∧ win0_0.index t (1 : Fin 2) = 0 ∧ win0_1.index t (1 : Fin 2) = 0 :=
  (by decide +kernel : ∀ t : Fin grid0.N, _)

/-- Every row block is some point's. -/
theorem idx_onto : ∀ q0 : Fin 98, ∃ t : Fin cfg0.N, win0_1.index t = ![q0.val, 0] :=
  (by decide +kernel : ∀ q0 : Fin 98, ∃ t : Fin grid0.N, win0_1.index t = ![q0.val, 0])

/-- What point `t` writes back is block `t` of the staged array with its columns selected. -/
theorem flushed_eq (c : Dev nD) (t : Fin cfg0.N) :
    (dats m 0 c).flushed 1 t = ((cfg0.win 1).blk t).view.read (Elt Ideal) (selCols (staged m c)) := by
  show (cfg0.win 1).cut (grid0.coords t) ((dats m 0 c).after 1 t) = _
  rw [after0_1]
  unfold out0_1
  rw [View.canon_unit_zero hz]
  simp only [View.ld_unit_zero (S := S1536x256) hz]
  obtain ⟨e0, e1, e2⟩ := idx_facts t
  funext j
  obtain ⟨p, q, rfl⟩ : ∃ (p : Fin 1536) (q : Fin 128), j = ix2 p q := ⟨j 0, j 1, eq_ix2 j⟩
  show k0_pay1 (xblk m c t) (ix2 p q) = selCols (staged m c) (((cfg0.win 1).blk t).view.emb (ix2 p q))
  refine (Select.pay_apply (xblk m c t) p q).trans ?_
  show staged m c (((cfg0.win 0).blk t).view.emb (ix2 p (sel q))) = _
  refine congrArg (staged m c) (funext fun a => Fin.ext ?_)
  match a with
  | ⟨0, _⟩ =>
    show win0_0.index t (0 : Fin 2) * 1536 + 1 * p.val = win0_1.index t (0 : Fin 2) * 1536 + 1 * p.val
    rw [e0]
  | ⟨1, _⟩ =>
    show win0_0.index t (1 : Fin 2) * 256 + 1 * (q.val * 255 / 127) = (win0_1.index t (1 : Fin 2) * 128 + 1 * q.val) * 255 / 127
    rw [e1, e2]
    omega

/-- An index of the result array is in point `t`'s block iff each coordinate is in the block's range on its axis. -/
theorem mem_blk (t : Fin cfg0.N) (i : S150528x128.Idx) :
    i ∈ ((cfg0.win 1).blk t).view.set ↔ ∀ a : Fin 2, win0_1.index t a * S1536x128.size a ≤ (i a).val ∧ (i a).val < win0_1.index t a * S1536x128.size a + S1536x128.size a := by
  show i ∈ ((View.whole main_v2).slice (win0_1.rect t)).set ↔ _
  rw [View.set_slice_whole, Rect.mem_set_unit]
  exact Iff.rfl

/-- The blocks tile the array: row r is in block r / 1536. -/
theorem cover (i : S150528x128.Idx) : ∃ t : Fin cfg0.N, (cfg0.win 1).flush t = true ∧ i ∈ ((cfg0.win 1).blk t).view.set := by
  have hi0 : (i 0).val < 150528 := (i 0).isLt
  have hi1 : (i 1).val < 128 := (i 1).isLt
  obtain ⟨t, ht⟩ := idx_onto ⟨(i 0).val / 1536, by omega⟩
  have q0 : win0_1.index t (0 : Fin 2) = (i 0).val / 1536 := congrFun ht 0
  have q1 : win0_1.index t (1 : Fin 2) = 0 := congrFun ht 1
  refine ⟨t, flush0_1 t, ?_⟩
  rw [mem_blk]
  intro a
  match a with
  | ⟨0, _⟩ => show win0_1.index t (0 : Fin 2) * 1536 ≤ (i 0).val ∧ (i 0).val < win0_1.index t (0 : Fin 2) * 1536 + 1536; omega
  | ⟨1, _⟩ => show win0_1.index t (1 : Fin 2) * 128 ≤ (i 1).val ∧ (i 1).val < win0_1.index t (1 : Fin 2) * 128 + 128; omega

/-- The result array after the region: the staged array with its columns selected. -/
theorem final (c : Dev nD) : (dats m 0 c).arrAt 1 cfg0.N = selCols (staged m c) :=
  (dats m 0 c).arrAt_eq_of_cover 1 (selCols (staged m c)) (fun t _ => flushed_eq m c t) cover

/-! ## The lines after the region -/

/-- The program's result buffer after the two layout operations that follow the region. -/
theorem tail_eq (c : Dev nD) :
    Pipeline.afterTail₀ cfgs (dats m) 0 (V0 m) [hostOps1] c main_v4
      = transpose S128x3x224x224 [3, 0, 1, 2]
          (shapeCast S3x224x224x128 (selCols (staged m c)) shapeCasts_S150528x128_S3x224x224x128)
          transposes_S3x224x224x128_S128x3x224x224_3_0_1_2 := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v2)
      = selCols (staged m c) := (Pipeline.withArrays_arr spec0 launch0.win.arr_inj c _ _ 1).trans (final m c)
  rw [hw]
  rfl

/-- The program's result at (n, c, h, w) is the argument at (sel n, c, h, w). -/
theorem result_eq (c : Dev nD) :
    Pipeline.afterTail₀ cfgs (dats m) 0 (V0 m) [hostOps1] c main_v4 = resample (m ((c : Thread nD τ).loc main_arg0)) := by
  rw [tail_eq]
  funext j
  obtain ⟨n, k, h, w, rfl⟩ : ∃ (n : Fin 128) (k : Fin 3) (h w : Fin 224), j = ix4 n k h w := ⟨j 0, j 1, j 2, j 3, eq_ix4 j⟩
  rw [resample_apply]
  have hr : (k.val * 224 + h.val) * 224 + w.val < 150528 := by
    have := k.isLt; have := h.isLt; have := w.isLt; omega
  refine (transpose_apply [3, 0, 1, 2] _ transposes_S3x224x224x128_S128x3x224x224_3_0_1_2 (ix4 n k h w) (ix4 k h w n) ?_).trans ?_
  · intro b
    match b with
    | ⟨0, _⟩ => rfl
    | ⟨1, _⟩ => rfl
    | ⟨2, _⟩ => rfl
    | ⟨3, _⟩ => rfl
  refine (shapeCast_apply _ shapeCasts_S150528x128_S3x224x224x128 (ix4 k h w n)
    (ix2 (⟨(k.val * 224 + h.val) * 224 + w.val, hr⟩ : Fin 150528) n) ?_).trans ?_
  · rw [Shape.rowMajor_val_four, Shape.rowMajor_val_two]
    rfl
  show staged m c (ix2 (⟨(k.val * 224 + h.val) * 224 + w.val, hr⟩ : Fin 150528) (sel n)) = _
  exact staged_apply m c k h w (sel n) _ rfl

/-! ## The run, read -/

/-- From any memory with zero counters, every weakly fair execution of the kernel program terminates with the result
    array at `resample` of the argument array and the argument array unchanged. -/
theorem run : θ_run defs (onTc (τ := τ) (main (F := Ideal))) ⟨m, fun _ => 0, ρ⟩ fun r => ∀ c : Dev nD,
      r.2.mem ((c.tc : Thread nD τ).loc main_v4) = resample (m ((c.tc : Thread nD τ).loc main_arg0))
      ∧ r.2.mem ((c.tc : Thread nD τ).loc main_arg0) = m ((c.tc : Thread nD τ).loc main_arg0) :=
  (θ_run defs _ _).mono (fun _ h c =>
      ⟨((h c).2 main_v4 (Pipeline.mem_restRefs_of main_v4 (by decide) (by decide))).trans (result_eq m c),
        ((h c).2 main_arg0 (Pipeline.mem_restRefs_of main_arg0 (by decide) (by decide))).trans (W_main_arg0 m (dats m) c)⟩)
    (run_main m ρ)

end Cert.KernelIdeal.KValue

end
-- ==== Proof.RefRun.lean ====
/-
  The reference program's run, read back as one function of its argument.

  The reference is a straight line of 45 host operations once its three calls are unfolded: five of its own (the
  frame numbers 0 … 127, their product with 255, the divisor 127), the 17 of the floor division (truncating quotient,
  the two signs, the remainder, the correction and the choice between the two quotients), and the 23 of the
  take-along-the-frame-axis (a negative index wrapped by 256, the range test 0 ≤ · ≤ 255 and its reduction, the row
  gather, and the choice between the gathered frame and a filler where the test fails). `out` is the value those
  operations compose to, in the same order: `floorDiv` then `take`. Every weakly fair execution of the program ends
  with the result array at `out` of the argument array and the argument unchanged (`run`).
-/
import proofs.«180383_g5634997093011_cont_9to1c4b_178_15_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The value -/

/-- The floor quotient of an index array by a scalar divisor: the truncating quotient, less one where the signs of
    dividend and divisor differ and the remainder is not zero. -/
def floorDiv (a : IVec S128 32) (b : IVec S_ 32) : IVec S128 32 :=
  select
    (andi (cmpi .ne (signi a) (broadcastInDim S128 ![] bcast_S_S128 (signi b)))
      (cmpi .ne (Host.remsi a (broadcastInDim S128 ![] bcast_S_S128 b)) (broadcastInDim S128 ![] bcast_S_S128 (constantI S_ 32 0#32))))
    (subi (Host.divsi a (broadcastInDim S128 ![] bcast_S_S128 b)) (broadcastInDim S128 ![] bcast_S_S128 (constantI S_ 32 1#32)))
    (Host.divsi a (broadcastInDim S128 ![] bcast_S_S128 b))

/-- The frame numbers: ⌊255·n / 127⌋ for n = 0 … 127, as the program computes them. -/
def frameIdx : IVec S128 32 :=
  floorDiv (muli (iotaInDim S128 32 0) (broadcastInDim S128 ![] bcast_S_S128 (constantI S_ 32 255#32))) (constantI S_ 32 127#32)

/-- The start indices of the gather: each index wrapped by 256 when negative, laid out as a column. -/
def startIdx (idx : IVec S128 32) : IVec S128x1 32 :=
  broadcastInDim S128x1 ![0] bcast_S128_S128x1_0
    (select (cmpi .slt idx (broadcastInDim S128 ![] bcast_S_S128 (constantI S_ 32 0#32)))
      (addi idx (broadcastInDim S128 ![] bcast_S_S128 (constantI S_ 32 256#32))) idx)

/-- The range test of the start indices, 0 ≤ · ≤ 255, before its reduction along the unit axis. -/
def rangeBits (i5 : IVec S128x1 32) : IVec S128x1 1 :=
  andi (cmpi .sge i5 (broadcastInDim S128x1 ![] bcast_S_S128x1 (constantI S_ 32 0#32)))
    (cmpi .sle i5 (broadcastInDim S128x1 ![0, 1] bcast_S1x1_S128x1_0_1 (broadcastInDim S1x1 ![1] bcast_S1_S1x1_1 (constantI S1 32 255#32))))

/-- Which output frames have their index in range. -/
def rangeMask (i5 : IVec S128x1 32) : IVec S128 1 :=
  Host.reduce IntOp.andi (rangeBits i5) (constantI S_ 1 1#1) reducesTo_S128x1_S128_d1 h_S_

/-- Frames of `x` taken at the indices `idx`: the gathered frame where the index is in range, a filler elsewhere. -/
def take (x : FVec F S256x3x224x224 .f32) (idx : IVec S128 32) : FVec F S128x3x224x224 .f32 :=
  select (broadcastInDim S128x3x224x224 ![0] bcast_S128_S128x3x224x224_0 (rangeMask (startIdx idx)))
    (Host.gather gather_S256x3x224x224_S128x1_S128x3x224x224_123_0_n_n_0_1_13224224 x (startIdx idx))
    (broadcastInDim S128x3x224x224 ![] bcast_S_S128x3x224x224 (constant S_ .f32 0x7FC00000#32))

/-- The reference's result as a function of its argument. -/
def out (x : FVec F S256x3x224x224 .f32) : FVec F S128x3x224x224 .f32 := take x frameIdx

/-! ## The operations -/

/-- @main's operations in order, the calls unfolded: its own five, the floor division's seventeen (the last the choice
    its inner call makes), the take's twenty-three (the seventh the choice its inner call makes). -/
abbrev ops : List (HloOp τ sig (Elt F)) :=
  [ nullary main_v0 (iotaInDim S128 32 0),
    nullary main_c (constantI S_ 32 255#32),
    unary main_c main_v1 (broadcastInDim S128 ![] bcast_S_S128 : (⟨S_, .i32⟩ : BufTy).Contents (Elt F) → (⟨S128, .i32⟩ : BufTy).Contents (Elt F)),
    binary main_v0 main_v1 main_v2 (muli : (⟨S128, .i32⟩ : BufTy).Contents (Elt F) → (⟨S128, .i32⟩ : BufTy).Contents (Elt F) → (⟨S128, .i32⟩ : BufTy).Contents (Elt F)),
    nullary main_c_0 (constantI S_ 32 127#32),
    TRef.unary (.of main_c_0) main_call0.v0 id,
    TRef.unary main_call0.v0 main_call0.v1 (broadcastInDim S128 ![] bcast_S_S128),
    TRef.binary (.of main_v2) main_call0.v1 main_call0.v2 Host.divsi,
    TRef.unary (.of main_v2) main_call0.v3 signi,
    TRef.unary main_call0.v0 main_call0.v4 signi,
    TRef.unary main_call0.v4 main_call0.v5 (broadcastInDim S128 ![] bcast_S_S128),
    TRef.binary main_call0.v3 main_call0.v5 main_call0.v6 (cmpi .ne),
    TRef.unary main_call0.v0 main_call0.v7 (broadcastInDim S128 ![] bcast_S_S128),
    TRef.binary (.of main_v2) main_call0.v7 main_call0.v8 Host.remsi,
    TRef.nullary main_call0.c (constantI S_ 32 0#32),
    TRef.unary main_call0.c main_call0.v9 (broadcastInDim S128 ![] bcast_S_S128),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S128 ![] bcast_S_S128),
    TRef.binary main_call0.v2 main_call0.v12 main_call0.v13 subi,
    TRef.ternary main_call0.v11 main_call0.v13 main_call0.v2 main_call0.call0.v0 select,
    TRef.nullary main_call1.c (constantI S_ 32 0#32),
    TRef.unary main_call1.c main_call1.v0 (broadcastInDim S128 ![] bcast_S_S128),
    TRef.binary (.of main_v3) main_call1.v0 main_call1.v1 (cmpi .slt),
    TRef.nullary main_call1.c_0 (constantI S_ 32 256#32),
    TRef.unary main_call1.c_0 main_call1.v2 (broadcastInDim S128 ![] bcast_S_S128),
    TRef.binary (.of main_v3) main_call1.v2 main_call1.v3 addi,
    TRef.ternary main_call1.v1 main_call1.v3 (.of main_v3) main_call1.call0.v0 select,
    TRef.unary main_call1.call0.v0 main_call1.v5 (broadcastInDim S128x1 ![0] bcast_S128_S128x1_0),
    TRef.nullary main_call1.c_1 (constantI S1 32 255#32),
    TRef.nullary main_call1.c_2 (constantI S_ 32 0#32),
    TRef.unary main_call1.c_2 main_call1.v6 (broadcastInDim S128x1 ![] bcast_S_S128x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S128x1 ![0, 1] bcast_S1x1_S128x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S128x1_S128_d1 h_S_),
    TRef.binary (.of main_arg0) main_call1.v5 main_call1.v13 (fun x i => Host.gather gather_S256x3x224x224_S128x1_S128x3x224x224_123_0_n_n_0_1_13224224 x i),
    TRef.unary main_call1.v12 main_call1.v14 (broadcastInDim S128x3x224x224 ![0] bcast_S128_S128x3x224x224_0),
    TRef.nullary main_call1.cst (constant S_ .f32 0x7FC00000#32),
    TRef.unary main_call1.cst main_call1.v15 (broadcastInDim S128x3x224x224 ![] bcast_S_S128x3x224x224),
    TRef.ternary main_call1.v14 main_call1.v13 main_call1.v15 main_call1.v16 select ]

set_option maxRecDepth 1024 in
/-- @main is that straight line: the functions' definitions unfolded at their calls, both sides are one chain of steps
    once sequencing is re-associated. -/
theorem main_eq (c : Dev nD) : main (F := F) c = seq ops := by
  simp only [main, fn_floor_divide.body, fn_take.body, fn_where.body, seq, bind_assoc, pure_bind]

set_option maxRecDepth 8192 in
set_option maxHeartbeats 1000000 in
/-- What the operations leave in the result buffer is `out` of the argument: each operation's result read where it is
    used, in order; a value written and read back through a reference of its own type is that value. -/
theorem out_eq (V : Valuation τ sig (Elt F)) :
    after ops V (main_v4 : DevRef τ sig) = out (V (main_arg0 : DevRef τ sig)) := by
  after_results_simp
  simp only [cast_eq]
  rfl

/-- No operation writes the argument. -/
theorem arg0_eq (V : Valuation τ sig (Elt F)) :
    after ops V (main_arg0 : DevRef τ sig) = V (main_arg0 : DevRef τ sig) := by
  after_results_simp

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub ..,
    unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- From any memory with zero counters, every weakly fair execution of the reference terminates with the result array
    at `out` of the argument array and the argument array unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4) = out (m ((c.tc : Thread nD τ).loc main_arg0))
      ∧ r.2.mem ((c.tc : Thread nD τ).loc main_arg0) = m ((c.tc : Thread nD τ).loc main_arg0) :=
  (θ_run defs _ _).mono (fun _ h c => ⟨(h c main_v4).trans (out_eq _), (h c main_arg0).trans (arg0_eq _)⟩)
    (run_seq scopedRefs_eq scopedSems_eq defs main (fun _ => ops) main_eq (fun _ => ops_sub) m ρ)

end Cert.ReferenceIdeal.RefRun

end
-- ==== Proof.GatherFrames.lean ====
/-
  The frame gather read at an entry.

  The reference gathers whole frames: operand x of shape [256, 3, 224, 224], start indices a [128, 1] column, the
  operand's axis 0 collapsed and start-indexed, its axes 1, 2, 3 kept whole as the offset axes of the result
  [128, 3, 224, 224]. Entry (n, c, h, w) of the result is x at (s, c, h, w) where s is the start index word of row n
  read as a signed integer and clamped into [0, 255]: on axis 0 the slice has size 1 so the clamp is to 256 - 1 and
  there is no offset; on the other axes the start is 0 (they are not start-indexed) and the offset is the result's
  coordinate.
-/
import proofs.«180383_g5634997093011_cont_9to1c4b_178_15_alg».proof.Proof.Gen.ReferenceIdeal
import Idealize.ShloMosaic.Lib.ValueIdx

namespace Cert.ReferenceIdeal.GatherFrames

open Cert.ReferenceIdeal Cert.ReferenceIdeal.Gen Idealize.ShloMosaic Idealize.ShloMosaic.ValueIdx

local notation "gd" => gather_S256x3x224x224_S128x1_S128x3x224x224_123_0_n_n_0_1_13224224

/-- No operand axis is a batching axis. -/
private theorem batch_zero (j : S128x3x224x224.Idx) (a : Fin S256x3x224x224.rank) : GatherDims.batchCoord gd j a = 0 :=
  GatherDims.batchCoord_eq_zero _ _ _ List.not_mem_nil

/-- The start-indices entry read for result entry (n, c, h, w) is (n, 0). -/
private theorem siIdx_eq (n : Fin 128) (c : Fin 3) (h w : Fin 224) (k) :
    GatherDims.siIdx gd (ix4 n c h w) k = ix2 n (0 : Fin 1) := by
  funext b; refine Fin.ext ?_
  match b with
  | ⟨0, _⟩ => rfl
  | ⟨1, _⟩ =>
    have := k.isLt
    show k.val = 0
    have hl : (GatherDims.startIndexMap gd).length = 1 := rfl
    omega

/-- The frame gather at (n, c, h, w): the operand at the clamped signed start index of row n, same (c, h, w). -/
theorem gather_apply {α : Type} (x : S256x3x224x224.Idx → α) (idx : IVec S128x1 32) (n : Fin 128) (c : Fin 3) (h w : Fin 224) :
    Host.gather gd x idx (ix4 n c h w)
      = x (ix4 (⟨min (idx (ix2 n (0 : Fin 1))).toInt.toNat (256 - 1), by omega⟩ : Fin 256) c h w) := by
  unfold Host.gather
  refine congrArg x (funext fun a => Fin.ext ?_)
  show GatherDims.start gd (ix4 n c h w) idx a + GatherDims.batchCoord gd (ix4 n c h w) a + GatherDims.offCoord gd (ix4 n c h w) a = _
  rw [batch_zero, Nat.add_zero]
  match a with
  | ⟨0, _⟩ =>
    -- the start-indexed, collapsed axis: the clamped start, no offset
    show GatherDims.start gd (ix4 n c h w) idx (0 : Fin 4) + GatherDims.offCoord gd (ix4 n c h w) (0 : Fin 4)
      = min (idx (ix2 n (0 : Fin 1))).toInt.toNat (256 - 1)
    rw [GatherDims.offCoord_eq_zero gd (ix4 n c h w) (0 : Fin 4)
      (fun hm => ((GatherDims.mem_sKept gd _).mp hm).1 (List.mem_singleton.mpr rfl)), Nat.add_zero]
    unfold GatherDims.start
    rw [dif_pos (show (0 : Fin 4) ∈ GatherDims.startIndexMap gd from List.mem_singleton.mpr rfl), siIdx_eq]
    rfl
  | ⟨1, _⟩ =>
    have hs : GatherDims.start gd (ix4 n c h w) idx (1 : Fin 4) = 0 := by
      unfold GatherDims.start; exact dif_neg (by decide)
    have ho : GatherDims.offCoord gd (ix4 n c h w) (1 : Fin 4) = c.val := by
      unfold GatherDims.offCoord; rw [dif_pos (by decide)]; rfl
    show GatherDims.start gd (ix4 n c h w) idx (1 : Fin 4) + GatherDims.offCoord gd (ix4 n c h w) (1 : Fin 4) = c.val
    rw [hs, ho, Nat.zero_add]
  | ⟨2, _⟩ =>
    have hs : GatherDims.start gd (ix4 n c h w) idx (2 : Fin 4) = 0 := by
      unfold GatherDims.start; exact dif_neg (by decide)
    have ho : GatherDims.offCoord gd (ix4 n c h w) (2 : Fin 4) = h.val := by
      unfold GatherDims.offCoord; rw [dif_pos (by decide)]; rfl
    show GatherDims.start gd (ix4 n c h w) idx (2 : Fin 4) + GatherDims.offCoord gd (ix4 n c h w) (2 : Fin 4) = h.val
    rw [hs, ho, Nat.zero_add]
  | ⟨3, _⟩ =>
    have hs : GatherDims.start gd (ix4 n c h w) idx (3 : Fin 4) = 0 := by
      unfold GatherDims.start; exact dif_neg (by decide)
    have ho : GatherDims.offCoord gd (ix4 n c h w) (3 : Fin 4) = w.val := by
      unfold GatherDims.offCoord; rw [dif_pos (by decide)]; rfl
    show GatherDims.start gd (ix4 n c h w) idx (3 : Fin 4) + GatherDims.offCoord gd (ix4 n c h w) (3 : Fin 4) = w.val
    rw [hs, ho, Nat.zero_add]

end Cert.ReferenceIdeal.GatherFrames
-- ==== Proof.LibIndexWrap.lean ====
/-
  Signed index words wrapped the NumPy way, and masks that are all ones.

  An index word `s` into an axis of extent `n` is wrapped as `if s < 0 then s + n else s` (signed compare, wrapping
  add). If `-n ≤ s < n` as a signed integer, the wrapped word lies in `[0, n)`, so a range test
  `0 ≤ s' ∧ s' ≤ n - 1` of it is the bit 1 (`wrap_inRange`, `rangeTest_wrap`). A reduce by `and` from the initial
  bit 1 over bits that are all 1 is 1 at every result index (`reduce_andi_of_all`, the converse of the library's
  `Host.reduce_andi_eq_one`), and a select under a mask that is 1 everywhere is its first branch (`select_of_ones`).
-/
import Idealize.ShloMosaic.Lib.ReduceAll
import Idealize.ShloMosaic.Lib.StableHlo.Predicate

namespace Idealize.ShloMosaic.IndexWrap

open Idealize.ShloMosaic

/-- NumPy's wrap of a signed index word into an axis of extent `n`: a negative index counts from the end. -/
def wrapWord (n s : BitVec 32) : BitVec 32 := Scalar.select (IntOp.cmpi .slt s 0#32) (IntOp.addi s n) s

/-- A signed index in `[-n, n)` wraps into `[0, n)`. -/
theorem wrap_inRange (n : Nat) (hn : n < 2 ^ 30) (s : BitVec 32) (h1 : -(n : Int) ≤ s.toInt) (h2 : s.toInt < n) :
    0 ≤ (wrapWord (BitVec.ofNat 32 n) s).toInt ∧ (wrapWord (BitVec.ofNat 32 n) s).toInt < n := by
  have hz : (0#32 : BitVec 32).toInt = 0 := by decide
  have hnI : (BitVec.ofNat 32 n).toInt = n := StableHlo.Predicate.toInt_ofNat_small n (by omega)
  unfold wrapWord Scalar.select
  by_cases hs : IntOp.cmpi .slt s 0#32 = 1
  · rw [if_pos hs]
    have hneg : s.toInt < 0 := by have := IntOp.cmpi_slt.1 hs; rwa [hz] at this
    have hsum : (IntOp.addi s (BitVec.ofNat 32 n)).toInt = s.toInt + n := by
      rw [IntOp.addi, BitVec.toInt_add, hnI]
      exact Int.bmod_eq_of_le (by omega) (by omega)
    rw [hsum]; omega
  · rw [if_neg hs]
    have hnn : ¬ s.toInt < 0 := fun h => hs (IntOp.cmpi_slt.2 (by rw [hz]; exact h))
    omega

/-- The range test `0 ≤ s' ∧ s' ≤ hi` (signed) of a wrapped index, `hi` the word of `n - 1`, is the bit 1. -/
theorem rangeTest_wrap (n : Nat) (hn0 : 0 < n) (hn : n < 2 ^ 30) (hi : BitVec 32) (hhi : hi.toInt = (n : Int) - 1)
    (s : BitVec 32) (h1 : -(n : Int) ≤ s.toInt) (h2 : s.toInt < n) :
    IntOp.andi (IntOp.cmpi .sge (wrapWord (BitVec.ofNat 32 n) s) 0#32) (IntOp.cmpi .sle (wrapWord (BitVec.ofNat 32 n) s) hi) = 1#1 := by
  have hz : (0#32 : BitVec 32).toInt = 0 := by decide
  obtain ⟨h0, hlt⟩ := wrap_inRange n hn s h1 h2
  exact IntOp.andi_eq_one.2 ⟨IntOp.cmpi_sge.2 (by rw [hz]; exact h0), IntOp.cmpi_sle.2 (by rw [hhi]; omega)⟩

/-- A left fold by `and` from 1 over bits that are all 1 is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_ones f l _ (IntOp.andi_eq_one.2 ⟨h, hl a (List.mem_cons_self ..)⟩) (fun n hn => hl n (List.mem_cons_of_mem _ hn))

/-- A reduce by `and` from the initial bit 1 over an operand that is 1 everywhere is 1 at every result index. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_ones x _ _ (hinit _) (fun i _ => hx i)

/-- Under a mask that is 1 everywhere a select is its first branch. -/
theorem select_of_ones {α : Type} {s : Shape} (c : IVec s 1) (a b : s.Idx → α) (hc : ∀ i, c i = 1#1) : select c a b = a :=
  funext fun i => by
    show Scalar.select (c i) (a i) (b i) = a i
    rw [hc i]; exact if_pos rfl

end Idealize.ShloMosaic.IndexWrap
-- ==== Proof.RefValue.lean ====
/-
  The reference's result at an entry: output frame n is input frame ⌊255·n / 127⌋.

  The frame numbers the program computes are the words of  sel n  (n = 0 … 127), none negative and all at most 255.
  So wrapping by 256 leaves them as they are (`startIdx_apply`), every range test is the bit 1 (`rangeBits_ones`), their
  reduction by "and" from 1 is 1 for every frame (`mask_ones`), and the final choice keeps the gathered frame everywhere:
  the filler is never read. The gather reads the operand at the clamped signed start index, which is  sel n  again
  (`out_apply`).
-/
import proofs.«180383_g5634997093011_cont_9to1c4b_178_15_alg».proof.Proof.RefRun
import proofs.«180383_g5634997093011_cont_9to1c4b_178_15_alg».proof.Proof.GatherFrames
import proofs.«180383_g5634997093011_cont_9to1c4b_178_15_alg».proof.Proof.Words
import proofs.«180383_g5634997093011_cont_9to1c4b_178_15_alg».proof.Proof.LibIndexWrap
import Idealize.ShloMosaic.Lib.Pipeline.Value

noncomputable section

namespace Cert.ReferenceIdeal.RefValue

open Cert.ReferenceIdeal Cert.ReferenceIdeal.Gen Cert.ReferenceIdeal.RefRun Idealize.ShloMosaic Idealize.ShloMosaic.ValueIdx
  Cert.Resample

/-- The program's frame number of output frame `n` is the host's quotient word of `n`. -/
theorem frameIdx_apply (n : Fin 128) : frameIdx (ix1 n) = hostWord (BitVec.ofNat 32 n.val) := rfl

/-- The start index of row `n` is the word of `sel n`: the wrap by 256 does nothing to it. -/
theorem startIdx_apply (n : Fin 128) (u : Fin 1) : startIdx frameIdx (ix2 n u) = BitVec.ofNat 32 (sel n).val := by
  have hs : startIdx frameIdx (ix2 n u) = wrap256 (frameIdx (ix1 n)) := by
    refine (broadcastInDim_apply ![0] bcast_S128_S128x1_0 _ (ix2 n u) (ix1 n) ?_).trans rfl
    intro a
    match a with
    | ⟨0, _⟩ => rfl
  rw [hs, frameIdx_apply, hostWord_eq]

/-- Every start index passes the range test. -/
theorem rangeBits_ones (i : S128x1.Idx) : rangeBits (startIdx frameIdx) i = 1#1 := by
  obtain ⟨n, u, rfl⟩ : ∃ (n : Fin 128) (u : Fin 1), i = ix2 n u := ⟨i 0, i 1, eq_ix2 i⟩
  show inRange (startIdx frameIdx (ix2 n u)) = 1#1
  rw [startIdx_apply]
  exact inRange_eq n

/-- So every output frame is marked in range. -/
theorem mask_ones (j : S128x3x224x224.Idx) :
    broadcastInDim S128x3x224x224 ![0] bcast_S128_S128x3x224x224_0 (rangeMask (startIdx frameIdx)) j = 1#1 := by
  unfold broadcastInDim rangeMask
  exact IndexWrap.reduce_andi_of_all _ _ _ _ (fun _ => rfl) rangeBits_ones _

/-- The reference's result at (n, c, h, w) is the argument at (sel n, c, h, w). -/
theorem out_apply (x : FVec Ideal S256x3x224x224 .f32) (n : Fin 128) (c : Fin 3) (h w : Fin 224) :
    out x (ix4 n c h w) = x (ix4 (sel n) c h w) := by
  unfold out take
  rw [IndexWrap.select_of_ones _ _ _ mask_ones, GatherFrames.gather_apply]
  refine congrArg x ?_
  have hc : min (startIdx frameIdx (ix2 n (0 : Fin 1))).toInt.toNat (256 - 1) = (sel n).val := by
    rw [startIdx_apply]; exact clamp_eq n
  funext a
  refine Fin.ext ?_
  match a with
  | ⟨0, _⟩ => exact hc
  | ⟨1, _⟩ => rfl
  | ⟨2, _⟩ => rfl
  | ⟨3, _⟩ => rfl

end Cert.ReferenceIdeal.RefValue

end
-- ==== Proof.lean ====
/-
  Regular frame resampling: the kernel program and its reference compute the same array over the extended reals.

  Both take x[256, 3, 224, 224] and return y[128, 3, 224, 224] with  y[n] = x[⌊255·n / 127⌋].

  The reference computes the 128 frame numbers on integer words and takes the frames with a gather whose out-of-range
  filler is never read, because every frame number lies in [0, 255] (Proof/RefRun.lean: the program's run as one
  function of its argument; Proof/GatherFrames.lean: the gather at an entry; Proof/RefValue.lean: the result at an
  entry). The kernel program lays x out frame-minor as a [150528, 256] array, multiplies each block of 1536 rows by the
  256 × 128 selection matrix whose column q is one-hot at ⌊255·q / 127⌋, and lays the product back out frame-major
  (Proof/Select.lean: a block times the selection matrix is the block's selected columns, for every extended real
  entry since x · 0 = 0 and x · 1 = x; Proof/KernelArray.lean: the blocks tile the array, and the two layouts read at
  an entry). Proof/Words.lean holds the word arithmetic both sides share. No finiteness of the input is used.

  The two kernel programs' frames are the generated frame certificates; the reference's frame is its run with the
  result dropped; the idealization rewrote nothing, so there is nothing to preserve.
-/
import proofs.«180383_g5634997093011_cont_9to1c4b_178_15_alg».proof.Defs
import proofs.«180383_g5634997093011_cont_9to1c4b_178_15_alg».proof.Proof.Gen.Kernel
import proofs.«180383_g5634997093011_cont_9to1c4b_178_15_alg».proof.Proof.Gen.Kernel.Skeleton
import proofs.«180383_g5634997093011_cont_9to1c4b_178_15_alg».proof.Proof.Gen.Kernel.Launch
import proofs.«180383_g5634997093011_cont_9to1c4b_178_15_alg».proof.Proof.Gen.Kernel.Points
import proofs.«180383_g5634997093011_cont_9to1c4b_178_15_alg».proof.Proof.Gen.Kernel.Frame
import proofs.«180383_g5634997093011_cont_9to1c4b_178_15_alg».proof.Proof.Gen.KernelIdeal
import proofs.«180383_g5634997093011_cont_9to1c4b_178_15_alg».proof.Proof.Gen.KernelIdeal.Skeleton
import proofs.«180383_g5634997093011_cont_9to1c4b_178_15_alg».proof.Proof.Gen.KernelIdeal.Launch
import proofs.«180383_g5634997093011_cont_9to1c4b_178_15_alg».proof.Proof.Gen.KernelIdeal.Points
import proofs.«180383_g5634997093011_cont_9to1c4b_178_15_alg».proof.Proof.Gen.KernelIdeal.Frame
import proofs.«180383_g5634997093011_cont_9to1c4b_178_15_alg».proof.Proof.Gen.ReferenceIdeal
import proofs.«180383_g5634997093011_cont_9to1c4b_178_15_alg».proof.Proof.Gen.Pre_finite_inputs
import proofs.«180383_g5634997093011_cont_9to1c4b_178_15_alg».proof.Proof.KernelArray
import proofs.«180383_g5634997093011_cont_9to1c4b_178_15_alg».proof.Proof.RefValue
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Both programs end with the result array at  y[n, c, h, w] = x[⌊255·n / 127⌋, c, h, w]  of arguments that agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [hagree c]
  funext j
  obtain ⟨n, k, h, w, rfl⟩ : ∃ (n : Fin 128) (k : Fin 3) (h w : Fin 224), j = ix4 n k h w := ⟨j 0, j 1, j 2, j 3, eq_ix4 j⟩
  rw [Cert.KernelIdeal.KValue.resample_apply]
  exact Cert.ReferenceIdeal.RefValue.out_apply _ n k h w

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
